-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x256 : Shape := ⟨3, ![8, 10000, 256]⟩
abbrev S8x2000x128 : Shape := ⟨3, ![8, 2000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S256x512 : Shape := ⟨2, ![256, 512]⟩
abbrev S_ : Shape := ⟨0, ![]⟩

class Facts : Prop where
  bcast_S_S8x10000x256 : S_.BroadcastsInDim S8x10000x256 (![] : Fin 0 → Fin S8x10000x256.rank)
  reducesTo_S8x10000x256_S_d0_1_2 : S8x10000x256.ReducesTo [0, 1, 2] S_
  h_S_ : 0 < S_.numel
  bcast_S_S8x2000x128 : S_.BroadcastsInDim S8x2000x128 (![] : Fin 0 → Fin S8x2000x128.rank)
  reducesTo_S8x2000x128_S_d0_1_2 : S8x2000x128.ReducesTo [0, 1, 2] S_
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg8 : FVec F S256x512 .f32) (main_arg9 : FVec F S256 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x512 .f32) (main_arg9 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S8x10000x256 .f32) (main_arg1 : FVec F S8x2000x128 .f32) (main_arg2 : IVec S2x800000 32) (main_arg3 : FVec F S800000 .f32) (main_arg4 : FVec F S256x128 .f32) (main_arg5 : FVec F S256 .f32) (main_arg6 : FVec F S256x256 .f32) (main_arg7 : FVec F S256 .f32) (main_arg8 : FVec F S256x512 .f32) (main_arg9 : FVec F S256 .f32) : IVec S_ 1 :=
  let main_v0 : FVec F S8x10000x256 .f32 := Host.absf main_arg0
  let main_cst : FVec F S_ .f32 := constant S_ .f32 0x7F800000#32
  let main_v1 : FVec F S8x10000x256 .f32 := broadcastInDim S8x10000x256 ![] bcast_S_S8x10000x256 main_cst
  let main_v2 : IVec S8x10000x256 1 := cmpf .olt main_v0 main_v1
  let main_c : IVec S_ 1 := constantI S_ 1 1#1
  let main_v3 : IVec S_ 1 := (fun x v => Host.reduce IntOp.andi x v reducesTo_S8x10000x256_S_d0_1_2 h_S_) main_v2 main_c
  let main_v4 : FVec F S8x2000x128 .f32 := Host.absf main_arg1
  let main_cst_0 : FVec F S_ .f32 := constant S_ .f32 0x7F800000#32
  let main_v5 : FVec F S8x2000x128 .f32 := broadcastInDim S8x2000x128 ![] bcast_S_S8x2000x128 main_cst_0
  let main_v6 : IVec S8x2000x128 1 := cmpf .olt main_v4 main_v5
  let main_c_1 : IVec S_ 1 := constantI S_ 1 1#1
  let main_v7 : IVec S_ 1 := (fun x v => Host.reduce IntOp.andi x v reducesTo_S8x2000x128_S_d0_1_2 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S8x10000x256 : Shape := ⟨3, ![8, 10000, 256]⟩
abbrev S8x2000x128 : Shape := ⟨3, ![8, 2000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S256x512 : Shape := ⟨2, ![256, 512]⟩
abbrev S80000x256 : Shape := ⟨2, ![80000, 256]⟩
abbrev S16000x128 : Shape := ⟨2, ![16000, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S1x256 : Shape := ⟨2, ![1, 256]⟩
abbrev S800000x256 : Shape := ⟨2, ![800000, 256]⟩
abbrev S5000x128 : Shape := ⟨2, ![5000, 128]⟩
abbrev S5000x256 : Shape := ⟨2, ![5000, 256]⟩
abbrev S80000 : Shape := ⟨1, ![80000]⟩
abbrev S80000x1 : Shape := ⟨2, ![80000, 1]⟩
abbrev S512x256 : Shape := ⟨2, ![512, 256]⟩
abbrev S2000x256 : Shape := ⟨2, ![2000, 256]⟩
abbrev S2000x1 : Shape := ⟨2, ![2000, 1]⟩
abbrev S2000x512 : Shape := ⟨2, ![2000, 512]⟩

abbrev nBuf : Space → Nat
  | .hbm => 46
  | .vmem => 18
  | .smem => 0
  | _ => 0

abbrev bufTy : (tb : Table) → Fin (tcTables nBuf tb) → BufTy
  | .hbm, ⟨0, _⟩ => ⟨S8x10000x256, .f32⟩
  | .hbm, ⟨1, _⟩ => ⟨S8x2000x128, .f32⟩
  | .hbm, ⟨2, _⟩ => ⟨S2x800000, .i32⟩
  | .hbm, ⟨3, _⟩ => ⟨S800000, .f32⟩
  | .hbm, ⟨4, _⟩ => ⟨S256x128, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S80000x256, .f32⟩
  | .hbm, ⟨11, _⟩ => ⟨S16000x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S128x256, .f32⟩
  | .hbm, ⟨26, _⟩ => ⟨S1x256, .f32⟩
  | .hbm, ⟨27, _⟩ => ⟨S800000x256, .f32⟩
  | .hbm, ⟨28, _⟩ => ⟨S800000x1, .f32⟩
  | .hbm, ⟨29, _⟩ => ⟨S800000x256, .f32⟩
  | .hbm, ⟨30, _⟩ => ⟨S800000x256, .f32⟩
  | .hbm, ⟨31, _⟩ => ⟨S_, .f32⟩
  | .hbm, ⟨32, _⟩ => ⟨S80000x256, .f32⟩
  | .hbm, ⟨33, _⟩ => ⟨S800000x1, .i32⟩
  | .hbm, ⟨34, _⟩ => ⟨S80000x256, .f32⟩
  | .hbm, ⟨35, _⟩ => ⟨S_, .f32⟩
  | .hbm, ⟨36, _⟩ => ⟨S80000, .f32⟩
  | .hbm, ⟨37, _⟩ => ⟨S800000x1, .i32⟩
  | .hbm, ⟨38, _⟩ => ⟨S80000, .f32⟩
  | .hbm, ⟨39, _⟩ => ⟨S80000x1, .f32⟩
  | .hbm, ⟨40, _⟩ => ⟨S256x256, .f32⟩
  | .hbm, ⟨41, _⟩ => ⟨S1x256, .f32⟩
  | .hbm, ⟨42, _⟩ => ⟨S512x256, .f32⟩
  | .hbm, ⟨43, _⟩ => ⟨S1x256, .f32⟩
  | .hbm, ⟨44, _⟩ => ⟨S80000x256, .f32⟩
  | .hbm, ⟨45, _⟩ => ⟨S8x10000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S2000x256, .f32⟩
  | .local _ .vmem, ⟨7, _⟩ => ⟨S2000x256, .f32⟩
  | .local _ .vmem, ⟨8, _⟩ => ⟨S2000x1, .f32⟩
  | .local _ .vmem, ⟨9, _⟩ => ⟨S2000x1, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S1x256, .f32⟩
  | .local _ .vmem, ⟨14, _⟩ => ⟨S512x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S8x10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S8x10000x256_S80000x256 : S8x10000x256.ShapeCasts S80000x256
  shapeCasts_S8x2000x128_S16000x128 : S8x2000x128.ShapeCasts S16000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S256x128_S128x256_1_0 : S256x128.Transposes [1, 0] S128x256
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S800000x1_S800000x256_0_1 : S800000x1.BroadcastsInDim S800000x256 (![0, 1] : Fin 2 → Fin S800000x256.rank)
  bcast_S_S80000x256 : S_.BroadcastsInDim S80000x256 (![] : Fin 0 → Fin S80000x256.rank)
  bcast_S_S80000 : S_.BroadcastsInDim S80000 (![] : Fin 0 → Fin S80000.rank)
  shapeCasts_S80000_S80000x1 : S80000.ShapeCasts S80000x1
  transposes_S256x256_S256x256_1_0 : S256x256.Transposes [1, 0] S256x256
  transposes_S256x512_S512x256_1_0 : S256x512.Transposes [1, 0] S512x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S2000x256 : S1x256.Broadcasts S2000x256
  concatenates_S2000x256_S2000x256_S2000x512_d1 : Shape.Concatenates [S2000x256, S2000x256] S2000x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S80000x256_S8x10000x256 : S80000x256.ShapeCasts S8x10000x256
  gather_S16000x128_S800000x1_S800000x128_1_0_n_n_0_1_1128_wf : GatherDims.WF S16000x128 S800000x1 S800000x128 [1] [0] [] [0] [] 1 ![1, 128]
  dot_S5000x128_S128x256_S5000x256_1_0_0_1_n_n_wf : DotDims.WF S5000x128 S128x256 S5000x256 [1] [0] [0] [1] [] []
  scatter_S80000x256_S800000x1_S800000x256_1_0_0_1_wf : ScatterDims.WF S80000x256 S800000x1 S800000x256 [1] [0] [0] 1
  scatter_S80000_S800000x1_S800000_n_0_0_1_wf : ScatterDims.WF S80000 S800000x1 S800000 [] [0] [0] 1
  dot_S2000x256_S256x256_S2000x256_1_0_0_1_n_n_wf : DotDims.WF S2000x256 S256x256 S2000x256 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S800000x128.size a
  hwx0_0 : ∀ i : grid0.Coords, EltTy.bits .f32 = 32 ∨ (Rect.block (s := S800000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S800000x256.size a
  hwx0_3 : ∀ i : grid0.Coords, EltTy.bits .f32 = 32 ∨ (Rect.block (s := S800000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S80000x256.size a
  hwx1_0 : ∀ i : grid1.Coords, EltTy.bits .f32 = 32 ∨ (Rect.block (s := S80000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S80000x1.size a
  hwx1_1 : ∀ i : grid1.Coords, EltTy.bits .f32 = 32 ∨ (Rect.block (s := S80000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S80000x256.size a
  hwx1_2 : ∀ i : grid1.Coords, EltTy.bits .f32 = 32 ∨ (Rect.block (s := S80000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .f32 = 32 ∨ (Rect.block (s := S512x256) S512x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S80000x256.size a
  hwx1_7 : ∀ i : grid1.Coords, EltTy.bits .f32 = 32 ∨ (Rect.block (s := S80000x256) S2000x256.size (cc1_transform_7 i) (hinb1_7 i)).WholeWords (EltTy.packing .f32)

variable [Facts₀]

def gather_S16000x128_S800000x1_S800000x128_1_0_n_n_0_1_1128 : GatherDims S16000x128 S800000x1 S800000x128 where
  offsetDims := [1]
  collapsedSliceDims := [0]
  operandBatchingDims := []
  startIndicesBatchingDims := []
  startIndexMap := [0]
  indexVectorDim := 1
  sliceSizes := ![1, 128]
  wf := gather_S16000x128_S800000x1_S800000x128_1_0_n_n_0_1_1128_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S80000x256_S800000x1_S800000x256_1_0_0_1 : ScatterDims S80000x256 S800000x1 S800000x256 where
  updateWindowDims := [1]
  insertedWindowDims := [0]
  scatterDimsToOperandDims := [0]
  indexVectorDim := 1
  wf := scatter_S80000x256_S800000x1_S800000x256_1_0_0_1_wf
def scatter_S80000_S800000x1_S800000_n_0_0_1 : ScatterDims S80000 S800000x1 S800000 where
  updateWindowDims := []
  insertedWindowDims := [0]
  scatterDimsToOperandDims := [0]
  indexVectorDim := 1
  wf := scatter_S80000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x10000x256 : Shape := ⟨3, ![8, 10000, 256]⟩
abbrev S8x2000x128 : Shape := ⟨3, ![8, 2000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S256x512 : Shape := ⟨2, ![256, 512]⟩
abbrev S80000x256 : Shape := ⟨2, ![80000, 256]⟩
abbrev S16000x128 : Shape := ⟨2, ![16000, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S800000x256 : Shape := ⟨2, ![800000, 256]⟩
abbrev S1x256 : Shape := ⟨2, ![1, 256]⟩
abbrev S80000 : Shape := ⟨1, ![80000]⟩
abbrev S80000x1 : Shape := ⟨2, ![80000, 1]⟩
abbrev S80000x512 : Shape := ⟨2, ![80000, 512]⟩
abbrev S512x256 : Shape := ⟨2, ![512, 256]⟩

abbrev nBuf : Space → Nat
  | .hbm => 63
  | .vmem => 0
  | .smem => 0
  | _ => 0

abbrev bufTy : (tb : Table) → Fin (tcTables nBuf tb) → BufTy
  | .hbm, ⟨0, _⟩ => ⟨S8x10000x256, .f32⟩
  | .hbm, ⟨1, _⟩ => ⟨S8x2000x128, .f32⟩
  | .hbm, ⟨2, _⟩ => ⟨S2x800000, .i32⟩
  | .hbm, ⟨3, _⟩ => ⟨S800000, .f32⟩
  | .hbm, ⟨4, _⟩ => ⟨S256x128, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S80000x256, .f32⟩
  | .hbm, ⟨11, _⟩ => ⟨S16000x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S128x256, .f32⟩
  | .hbm, ⟨26, _⟩ => ⟨S800000x256, .f32⟩
  | .hbm, ⟨27, _⟩ => ⟨S1x256, .f32⟩
  | .hbm, ⟨28, _⟩ => ⟨S800000x256, .f32⟩
  | .hbm, ⟨29, _⟩ => ⟨S800000x256, .f32⟩
  | .hbm, ⟨30, _⟩ => ⟨S800000x1, .f32⟩
  | .hbm, ⟨31, _⟩ => ⟨S800000x256, .f32⟩
  | .hbm, ⟨32, _⟩ => ⟨S800000x256, .f32⟩
  | .hbm, ⟨33, _⟩ => ⟨S_, .f32⟩
  | .hbm, ⟨34, _⟩ => ⟨S80000x256, .f32⟩
  | .hbm, ⟨35, _⟩ => ⟨S800000x1, .i32⟩
  | .hbm, ⟨36, _⟩ => ⟨S80000x256, .f32⟩
  | .hbm, ⟨37, _⟩ => ⟨S_, .f32⟩
  | .hbm, ⟨38, _⟩ => ⟨S80000, .f32⟩
  | .hbm, ⟨39, _⟩ => ⟨S800000x1, .i32⟩
  | .hbm, ⟨40, _⟩ => ⟨S80000, .f32⟩
  | .hbm, ⟨41, _⟩ => ⟨S_, .f32⟩
  | .hbm, ⟨42, _⟩ => ⟨S_, .f32⟩
  | .hbm, ⟨43, _⟩ => ⟨S80000, .f32⟩
  | .hbm, ⟨44, _⟩ => ⟨S80000, .f32⟩
  | .hbm, ⟨45, _⟩ => ⟨S80000x1, .f32⟩
  | .hbm, ⟨46, _⟩ => ⟨S80000x256, .f32⟩
  | .hbm, ⟨47, _⟩ => ⟨S80000x256, .f32⟩
  | .hbm, ⟨48, _⟩ => ⟨S256x256, .f32⟩
  | .hbm, ⟨49, _⟩ => ⟨S80000x256, .f32⟩
  | .hbm, ⟨50, _⟩ => ⟨S1x256, .f32⟩
  | .hbm, ⟨51, _⟩ => ⟨S80000x256, .f32⟩
  | .hbm, ⟨52, _⟩ => ⟨S80000x256, .f32⟩
  | .hbm, ⟨53, _⟩ => ⟨S80000x512, .f32⟩
  | .hbm, ⟨54, _⟩ => ⟨S512x256, .f32⟩
  | .hbm, ⟨55, _⟩ => ⟨S80000x256, .f32⟩
  | .hbm, ⟨56, _⟩ => ⟨S1x256, .f32⟩
  | .hbm, ⟨57, _⟩ => ⟨S80000x256, .f32⟩
  | .hbm, ⟨58, _⟩ => ⟨S80000x256, .f32⟩
  | .hbm, ⟨59, _⟩ => ⟨S_, .f32⟩
  | .hbm, ⟨60, _⟩ => ⟨S80000x256, .f32⟩
  | .hbm, ⟨61, _⟩ => ⟨S80000x256, .f32⟩
  | .hbm, ⟨62, _⟩ => ⟨S8x10000x256, .f32⟩
  | _, _ => ⟨S8x10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call1_cst : Ref sig .tc := ⟨.hbm, 59, rfl⟩
abbrev main_call1_v0 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  shapeCasts_S8x10000x256_S80000x256 : S8x10000x256.ShapeCasts S80000x256
  shapeCasts_S8x2000x128_S16000x128 : S8x2000x128.ShapeCasts S16000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S256x128_S128x256_1_0 : S256x128.Transposes [1, 0] S128x256
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S800000x1_S800000x256_0_1 : S800000x1.BroadcastsInDim S800000x256 (![0, 1] : Fin 2 → Fin S800000x256.rank)
  bcast_S_S80000x256 : S_.BroadcastsInDim S80000x256 (![] : Fin 0 → Fin S80000x256.rank)
  bcast_S_S80000 : S_.BroadcastsInDim S80000 (![] : Fin 0 → Fin S80000.rank)
  bcast_S80000_S80000x1_0 : S80000.BroadcastsInDim S80000x1 (![0] : Fin 1 → Fin S80000x1.rank)
  bcast_S80000x1_S80000x256_0_1 : S80000x1.BroadcastsInDim S80000x256 (![0, 1] : Fin 2 → Fin S80000x256.rank)
  transposes_S256x256_S256x256_1_0 : S256x256.Transposes [1, 0] S256x256
  bcast_S1x256_S80000x256_0_1 : S1x256.BroadcastsInDim S80000x256 (![0, 1] : Fin 2 → Fin S80000x256.rank)
  concatenates_S80000x256_S80000x256_S80000x512_d1 : Shape.Concatenates [S80000x256, S80000x256] S80000x512 1
  transposes_S256x512_S512x256_1_0 : S256x512.Transposes [1, 0] S512x256
  shapeCasts_S80000x256_S8x10000x256 : S80000x256.ShapeCasts S8x10000x256
  gather_S16000x128_S800000x1_S800000x128_1_0_n_n_0_1_1128_wf : GatherDims.WF S16000x128 S800000x1 S800000x128 [1] [0] [] [0] [] 1 ![1, 128]
  dot_S800000x128_S128x256_S800000x256_1_0_0_1_n_n_wf : DotDims.WF S800000x128 S128x256 S800000x256 [1] [0] [0] [1] [] []
  scatter_S80000x256_S800000x1_S800000x256_1_0_0_1_wf : ScatterDims.WF S80000x256 S800000x1 S800000x256 [1] [0] [0] 1
  scatter_S80000_S800000x1_S800000_n_0_0_1_wf : ScatterDims.WF S80000 S800000x1 S800000 [] [0] [0] 1
  dot_S80000x256_S256x256_S80000x256_1_0_0_1_n_n_wf : DotDims.WF S80000x256 S256x256 S80000x256 [1] [0] [0] [1] [] []
  dot_S80000x512_S512x256_S80000x256_1_0_0_1_n_n_wf : DotDims.WF S80000x512 S512x256 S80000x256 [1] [0] [0] [1] [] []

variable [Facts₀]

def gather_S16000x128_S800000x1_S800000x128_1_0_n_n_0_1_1128 : GatherDims S16000x128 S800000x1 S800000x128 where
  offsetDims := [1]
  collapsedSliceDims := [0]
  operandBatchingDims := []
  startIndicesBatchingDims := []
  startIndexMap := [0]
  indexVectorDim := 1
  sliceSizes := ![1, 128]
  wf := gather_S16000x128_S800000x1_S800000x128_1_0_n_n_0_1_1128_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def scatter_S80000x256_S800000x1_S800000x256_1_0_0_1 : ScatterDims S80000x256 S800000x1 S800000x256 where
  updateWindowDims := [1]
  insertedWindowDims := [0]
  scatterDimsToOperandDims := [0]
  indexVectorDim := 1
  wf := scatter_S80000x256_S800000x1_S800000x256_1_0_0_1_wf
def scatter_S80000_S800000x1_S800000_n_0_0_1 : ScatterDims S80000 S800000x1 S800000 where
  updateWindowDims := []
  insertedWindowDims := [0]
  scatterDimsToOperandDims := [0]
  indexVectorDim := 1
  wf := scatter_S80000_S800000x1_S800000_n_0_0_1_wf
def dot_S80000x256_S256x256_S80000x256_1_0_0_1_n_n : DotDims S80000x256 S256x256 S80000x256 where
  lhsContracting := [1]
  rhsContracting := [0]
  lhsNonContracting := [0]
  rhsNonContracting := [1]
  lhsBatch := []
  rhsBatch := []
  wf := dot_S80000x256_S256x256_S80000x256_1_0_0_1_n_n_wf
def dot_S80000x512_S512x256_S80000x256_1_0_0_1_n_n : DotDims S80000x512 S512x256 S80000x256 where
  lhsContracting := [1]
  rhsContracting := [0]
  lhsNonContracting := [0]
  rhsNonContracting := [1]
  lhsBatch := []
  rhsBatch := []
  wf := dot_S80000x512_S512x256_S80000x256_1_0_0_1_n_n_wf

class Facts : Prop extends Facts₀ where

variable [Facts]
-- ==== Proof.Spec.lean ====
/-
  What the two kernels compute, as functions of whole arrays, index by index, on the extended reals.

  `lin x w b`: row r, column c of the first kernel's output array is the inner product of row r of `x` with
  column c of `w`, plus the bias `b` at column c.

  `upd agg ws obj wp bp wu bu`: row r of the second kernel's output array. The aggregate row `agg r` is divided
  entrywise by the row's weight sum clamped from below at a small positive constant, projected by `wp` and shifted
  by `bp` (`proj`); the object's own row and that projection are laid side by side (`comb`: columns below 256 are
  the object's, the others the projection's); that 512-long row is multiplied into `wu`, shifted by `bu`, and
  clamped from below at zero.

  Every one of these is computed row by row: row r of the result depends on row r of the row-indexed operands only.
  So a block of consecutive rows of the result is the same function of the same block of rows of the operands
  (`proj_rows`, `comb_rows`, `upd_rows`), which is what lets a kernel compute the array block by block.
-/
import Idealize.ShloMosaic.PureOps.Ideal
import Idealize.ShloMosaic.Lib.ValueIdx

noncomputable section

namespace Cert.Spec

open Idealize.ShloMosaic

/-- A two-axis array of extended reals of literal extents. -/
abbrev A2 (n0 n1 : Nat) : Type := (⟨2, ![n0, n1]⟩ : Shape).Idx → EReal

/-- The index (a, b) of a two-axis array, from natural numbers and their bounds. -/
abbrev p2 {n0 n1 : Nat} (a : Nat) (ha : a < n0) (b : Nat) (hb : b < n1) : (⟨2, ![n0, n1]⟩ : Shape).Idx :=
  fun d => match d with
    | ⟨0, _⟩ => ⟨a, ha⟩
    | ⟨1, _⟩ => ⟨b, hb⟩

theorem p2_congr {n0 n1 a a' b b' : Nat} {ha : a < n0} {ha' : a' < n0} {hb : b < n1} {hb' : b' < n1}
    (e0 : a = a') (e1 : b = b') : (p2 a ha b hb : (⟨2, ![n0, n1]⟩ : Shape).Idx) = p2 a' ha' b' hb' := by
  subst e0; subst e1; rfl

/-- An index is determined by the values of its two coordinates. -/
theorem idx_ext {n0 n1 : Nat} (i j : (⟨2, ![n0, n1]⟩ : Shape).Idx) (h0 : (i 0).val = (j 0).val) (h1 : (i 1).val = (j 1).val) :
    i = j := by
  funext a
  match a with
  | ⟨0, _⟩ => exact Fin.ext h0
  | ⟨1, _⟩ => exact Fin.ext h1

/-- The lower clamp of a row's weight sum, as the bit pattern both programs carry. -/
abbrev wfloor : EReal := Ideal.ofBits .f32 0x358637BD#32
/-- The zero both programs clamp the result at, as its bit pattern. -/
abbrev zero32 : EReal := Ideal.ofBits .f32 0x00000000#32

/-- Rows of `x` times the matrix `w`, plus the bias row `b`. -/
def lin (x : A2 800000 128) (w : A2 128 256) (b : A2 1 256) : A2 800000 256 :=
  fun i => (∑ k : Fin 128, x (p2 (i 0).val (i 0).isLt k.val k.isLt) * w (p2 k.val k.isLt (i 1).val (i 1).isLt))
    + b (p2 0 Nat.one_pos (i 1).val (i 1).isLt)

/-- The aggregate divided by the clamped weight sum of its row, times `wp`, plus the bias row `bp`. -/
def proj {n : Nat} (agg : A2 n 256) (ws : A2 n 1) (wp : A2 256 256) (bp : A2 1 256) : A2 n 256 :=
  fun j => (∑ k : Fin 256,
      Ideal.div (agg (p2 (j 0).val (j 0).isLt k.val k.isLt)) (max (ws (p2 (j 0).val (j 0).isLt 0 Nat.one_pos)) wfloor)
        * wp (p2 k.val k.isLt (j 1).val (j 1).isLt))
    + bp (p2 0 Nat.one_pos (j 1).val (j 1).isLt)

/-- Two 256-column arrays side by side. -/
def comb {n : Nat} (obj prj : A2 n 256) : A2 n 512 :=
  fun j => if h : (j 1).val < 256 then obj (p2 (j 0).val (j 0).isLt (j 1).val h)
    else prj (p2 (j 0).val (j 0).isLt ((j 1).val - 256) (by have h2 : (j 1).val < 512 := (j 1).isLt; omega))

/-- The second kernel's output array. -/
def upd {n : Nat} (agg : A2 n 256) (ws : A2 n 1) (obj : A2 n 256) (wp : A2 256 256) (bp : A2 1 256)
    (wu : A2 512 256) (bu : A2 1 256) : A2 n 256 :=
  fun i => max ((∑ k : Fin 512, comb obj (proj agg ws wp bp) (p2 (i 0).val (i 0).isLt k.val k.isLt) * wu (p2 k.val k.isLt (i 1).val (i 1).isLt))
    + bu (p2 0 Nat.one_pos (i 1).val (i 1).isLt)) zero32

/-! ## Rows of the result from rows of the operands -/

section Rows
variable {n n' : Nat} (off : Nat)

/-- `a'` is the block of rows `off, off + 1, …` of `a`. -/
def RowsOf {m : Nat} (a : A2 n m) (a' : A2 n' m) : Prop :=
  ∀ (j' : (⟨2, ![n', m]⟩ : Shape).Idx) (j : (⟨2, ![n, m]⟩ : Shape).Idx), (j 0).val = off + (j' 0).val → (j 1).val = (j' 1).val → a' j' = a j

theorem proj_rows {agg : A2 n 256} {ws : A2 n 1} {agg' : A2 n' 256} {ws' : A2 n' 1} (wp : A2 256 256) (bp : A2 1 256)
    (hagg : RowsOf off agg agg') (hws : RowsOf off ws ws') : RowsOf off (proj agg ws wp bp) (proj agg' ws' wp bp) := by
  intro j' j h0 h1
  unfold proj
  refine congrArg₂ (· + ·) (Finset.sum_congr rfl fun k _ => congrArg₂ (· * ·)
    (congrArg₂ Ideal.div (hagg _ _ h0 rfl) (congrArg (max · wfloor) (hws _ _ h0 rfl))) ?_) ?_
  · exact congrArg wp (p2_congr rfl h1.symm)
  · exact congrArg bp (p2_congr rfl h1.symm)

theorem comb_rows {obj prj : A2 n 256} {obj' prj' : A2 n' 256}
    (hobj : RowsOf off obj obj') (hprj : RowsOf off prj prj') : RowsOf off (comb obj prj) (comb obj' prj') := by
  intro j' j h0 h1
  unfold comb
  by_cases h : (j' 1).val < 256
  · have h' : (j 1).val < 256 := by rw [h1]; exact h
    rw [dif_pos h, dif_pos h']
    exact hobj _ _ h0 h1
  · have h' : ¬ (j 1).val < 256 := by rw [h1]; exact h
    rw [dif_neg h, dif_neg h']
    exact hprj _ _ h0 (by show (j 1).val - 256 = (j' 1).val - 256; rw [h1])

theorem upd_rows {agg : A2 n 256} {ws : A2 n 1} {obj : A2 n 256} {agg' : A2 n' 256} {ws' : A2 n' 1} {obj' : A2 n' 256}
    (wp : A2 256 256) (bp : A2 1 256) (wu : A2 512 256) (bu : A2 1 256)
    (hagg : RowsOf off agg agg') (hws : RowsOf off ws ws') (hobj : RowsOf off obj obj') :
    RowsOf off (upd agg ws obj wp bp wu bu) (upd agg' ws' obj' wp bp wu bu) := by
  intro j' j h0 h1
  unfold upd
  refine congrArg (max · zero32) (congrArg₂ (· + ·) (Finset.sum_congr rfl fun k _ => congrArg₂ (· * ·) ?_ ?_) ?_)
  · exact comb_rows off hobj (proj_rows off wp bp hagg hws) _ _ h0 rfl
  · exact congrArg wu (p2_congr rfl h1.symm)
  · exact congrArg bu (p2_congr rfl h1.symm)

end Rows

end Cert.Spec

end
-- ==== Proof.Value.lean ====
/-
  The program's result as ONE function of its ten argument arrays, built stage by stage: each edge's attribute row is
  gathered and sent through a linear layer (`Spec.lin`); the messages, weighted by their edges' weights, are summed
  into their objects' rows, and so are the weights themselves; every object's row of sums, its weight sum and its
  own features then go through `Spec.upd`; the result is laid out as batch × objects × features.
-/
import proofs.«165691_j48077863912208_1_alg».proof.Proof.Gen.KernelIdeal
import proofs.«165691_j48077863912208_1_alg».proof.Proof.Spec

noncomputable section

namespace Cert.KernelIdeal.Chain

open Cert.KernelIdeal Cert.KernelIdeal.Gen Idealize.ShloMosaic Idealize.ShloMosaic.TcCoe Idealize.SL.Sem

/-! ## The program's value, stage by stage, as functions of the argument arrays -/

/-- The first row of the edge table: each edge's object. -/
def objIdx (x2 : (⟨S2x800000, .i32⟩ : BufTy).Contents (Elt Ideal)) : (⟨S800000, .i32⟩ : BufTy).Contents (Elt Ideal) :=
  shapeCast S800000 (extractStridedSlice S1x800000 ![0, 0] x2 slices_S2x800000_S1x800000_0_0) shapeCasts_S1x800000_S800000

/-- The second row of the edge table: each edge's attribute, a negative entry counted from the end. -/
def attrIdx (x2 : (⟨S2x800000, .i32⟩ : BufTy).Contents (Elt Ideal)) : (⟨S800000, .i32⟩ : BufTy).Contents (Elt Ideal) :=
  select (cmpi .slt (shapeCast S800000 (extractStridedSlice S1x800000 ![1, 0] x2 slices_S2x800000_S1x800000_1_0) shapeCasts_S1x800000_S800000)
      (broadcastInDim S800000 ![] bcast_S_S800000 (constantI S_ 32 0#32)))
    (addi (shapeCast S800000 (extractStridedSlice S1x800000 ![1, 0] x2 slices_S2x800000_S1x800000_1_0) shapeCasts_S1x800000_S800000)
      (broadcastInDim S800000 ![] bcast_S_S800000 (constantI S_ 32 16000#32)))
    (shapeCast S800000 (extractStridedSlice S1x800000 ![1, 0] x2 slices_S2x800000_S1x800000_1_0) shapeCasts_S1x800000_S800000)

/-- Each edge's attribute row, gathered from the flattened attribute table. -/
def gathered (x1 : (⟨S8x2000x128, .f32⟩ : BufTy).Contents (Elt Ideal)) (x2 : (⟨S2x800000, .i32⟩ : BufTy).Contents (Elt Ideal)) :
    (⟨S800000x128, .f32⟩ : BufTy).Contents (Elt Ideal) :=
  Host.gather gather_S16000x128_S800000x1_S800000x128_1_0_n_n_0_1_1128 (shapeCast S16000x128 x1 shapeCasts_S8x2000x128_S16000x128)
    (broadcastInDim S800000x1 ![0] bcast_S800000_S800000x1_0 (attrIdx x2))

/-- The first kernel's output: a linear layer on every edge's attribute row. -/
def msgs (x1 : (⟨S8x2000x128, .f32⟩ : BufTy).Contents (Elt Ideal)) (x2 : (⟨S2x800000, .i32⟩ : BufTy).Contents (Elt Ideal)) (x4 : (⟨S256x128, .f32⟩ : BufTy).Contents (Elt Ideal)) (x5 : (⟨S256, .f32⟩ : BufTy).Contents (Elt Ideal)) :
    (⟨S800000x256, .f32⟩ : BufTy).Contents (Elt Ideal) :=
  Spec.lin (gathered x1 x2) (transpose S128x256 [1, 0] x4 transposes_S256x128_S128x256_1_0) (shapeCast S1x256 x5 shapeCasts_S256_S1x256)

/-- The messages weighted by their edges' weights, summed into their objects' rows. -/
def agg (x1 : (⟨S8x2000x128, .f32⟩ : BufTy).Contents (Elt Ideal)) (x2 : (⟨S2x800000, .i32⟩ : BufTy).Contents (Elt Ideal)) (x3 : (⟨S800000, .f32⟩ : BufTy).Contents (Elt Ideal)) (x4 : (⟨S256x128, .f32⟩ : BufTy).Contents (Elt Ideal)) (x5 : (⟨S256, .f32⟩ : BufTy).Contents (Elt Ideal)) :
    (⟨S80000x256, .f32⟩ : BufTy).Contents (Elt Ideal) :=
  Host.scatterAdd scatter_S80000x256_S800000x1_S800000x256_1_0_0_1
    (broadcastInDim S80000x256 ![] bcast_S_S80000x256 (constant (F := Ideal) S_ .f32 0x00000000#32))
    (broadcastInDim S800000x1 ![0] bcast_S800000_S800000x1_0 (objIdx x2))
    (mulf (msgs x1 x2 x4 x5) (broadcastInDim S800000x256 ![0, 1] bcast_S800000x1_S800000x256_0_1 (broadcastInDim S800000x1 ![0] bcast_S800000_S800000x1_0 x3)))

/-- Each object's sum of edge weights. -/
def wsum (x2 : (⟨S2x800000, .i32⟩ : BufTy).Contents (Elt Ideal)) (x3 : (⟨S800000, .f32⟩ : BufTy).Contents (Elt Ideal)) : (⟨S80000, .f32⟩ : BufTy).Contents (Elt Ideal) :=
  Host.scatterAdd scatter_S80000_S800000x1_S800000_n_0_0_1
    (broadcastInDim S80000 ![] bcast_S_S80000 (constant (F := Ideal) S_ .f32 0x00000000#32))
    (broadcastInDim S800000x1 ![0] bcast_S800000_S800000x1_0 (objIdx x2)) x3

/-- The program's result as one function of its ten argument arrays. -/
def value (x0 : (⟨S8x10000x256, .f32⟩ : BufTy).Contents (Elt Ideal)) (x1 : (⟨S8x2000x128, .f32⟩ : BufTy).Contents (Elt Ideal)) (x2 : (⟨S2x800000, .i32⟩ : BufTy).Contents (Elt Ideal)) (x3 : (⟨S800000, .f32⟩ : BufTy).Contents (Elt Ideal))
    (x4 : (⟨S256x128, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (x8 : (⟨S256x512, .f32⟩ : BufTy).Contents (Elt Ideal)) (x9 : (⟨S256, .f32⟩ : BufTy).Contents (Elt Ideal)) : (⟨S8x10000x256, .f32⟩ : BufTy).Contents (Elt Ideal) :=
  shapeCast S8x10000x256
    (Spec.upd (n := 80000) (agg x1 x2 x3 x4 x5) (shapeCast S80000x1 (wsum x2 x3) shapeCasts_S80000_S80000x1)
      (shapeCast S80000x256 x0 shapeCasts_S8x10000x256_S80000x256)
      (transpose S256x256 [1, 0] x6 transposes_S256x256_S256x256_1_0) (shapeCast S1x256 x7 shapeCasts_S256_S1x256)
      (transpose S512x256 [1, 0] x8 transposes_S256x512_S512x256_1_0) (shapeCast S1x256 x9 shapeCasts_S256_S1x256))
    shapeCasts_S80000x256_S8x10000x256

end Cert.KernelIdeal.Chain

end
-- ==== Proof.Region0.lean ====
/-
  The first kernel: a linear layer on 800000 rows, computed over 160 blocks of 5000 rows.

  At each grid point the body loads a block of 5000 rows of the input, the whole 128 × 256 weight and the 1 × 256 bias
  row, and stores the block's rows times the weight plus the bias. The contracted axis (128) lies whole inside every
  block, so entry (r, c) of a block's result is the full inner product of the block's row r with column c of the
  weight: the same sum the whole-array function `Spec.lin` has at the row the block's row r is in the array. The
  input block and the output block sit at the same block row and the weight and the bias at block (0, 0) (the index
  maps, decided over the 160 points), and the 160 output blocks cover the array (row r lies in block r / 5000): the
  output array after the grid is `Spec.lin` of the three arrays the kernel was entered with.
-/
import proofs.«165691_j48077863912208_1_alg».proof.Proof.Gen.KernelIdeal.Frame
import proofs.«165691_j48077863912208_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.Pipeline (Dat)
open Cert.Spec (p2)

theorem lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

theorem matmul_apply (a : FVec Ideal S5000x128 .bf16) (b : FVec Ideal S128x256 .bf16) (y : S5000x256.Idx) :
    matmul dot_S5000x128_S128x256_S5000x256_1_0_0_1_n_n none a b (constant S5000x256 .f32 0x00000000#32) y
      = ∑ k : Fin 128, a (p2 (y 0).val (y 0).isLt k.val k.isLt) * b (p2 k.val k.isLt (y 1).val (y 1).isLt) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx y ((ValueIdx.contrEquiv1 dot_S5000x128_S128x256_S5000x256_1_0_0_1_n_n 128 rfl rfl).symm k) = p2 (y 0).val (y 0).isLt k.val k.isLt := funext fun a => Fin.ext (by
    match a with
    | ⟨0, _⟩ => exact lhs_0 _ _
    | ⟨1, _⟩ => exact (lhs_1 _ _).trans hk)
  have er : dot_S5000x128_S128x256_S5000x256_1_0_0_1_n_n.rhsIdx y ((ValueIdx.contrEquiv1 dot_S5000x128_S128x256_S5000x256_1_0_0_1_n_n 128 rfl rfl).symm k) = p2 k.val k.isLt (y 1).val (y 1).isLt := funext fun a => Fin.ext (by
    match a with
    | ⟨0, _⟩ => exact (rhs_0 _ _).trans hk
    | ⟨1, _⟩ => exact rhs_1 _ _)
  rw [el, er]
  rfl

theorem pay_apply (x0 : Vec Ideal S5000x128 .f32) (x1 : Vec Ideal S128x256 .f32) (x2 : Vec Ideal S1x256 .f32) (y : S5000x256.Idx) :
    k0_pay1 x0 x1 x2 y = (∑ k : Fin 128, x0 (p2 (y 0).val (y 0).isLt k.val k.isLt) * x1 (p2 k.val k.isLt (y 1).val (y 1).isLt))
      + x2 (p2 0 Nat.one_pos (y 1).val (y 1).isLt) := by
  unfold k0_pay1
  dsimp only
  rw [shapeCast_self, shapeCast_self, shapeCast_self, ValueIdx.addf_apply]
  refine congrArg₂ (· + ·) ?_ ?_
  · exact matmul_apply _ _ y
  · exact broadcastTo_apply x2 broadcasts_S1x256_S5000x256 y (p2 0 Nat.one_pos (y 1).val (y 1).isLt) (fun a => match a with
      | ⟨0, _⟩ => by show 0 = if (1 : Nat) = 1 then 0 else _; rw [if_pos rfl]
      | ⟨1, _⟩ => by show (y 1).val = if (256 : Nat) = 1 then 0 else (y 1).val; rw [if_neg (by decide)])

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed_eq (c : Dev nD) (t : Fin cfg0.N) :
    (dat0 V c).flushed 3 t = ((cfg0.win 3).blk t).view.read (Elt Ideal) (Spec.lin (V c main_v12) (V c main_v13) (V c main_v14)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz, View.ld_unit_zero (S := S1x256) hz]
  obtain ⟨e0, e1, e2, e3, e4, e5, e6, e7⟩ := idx_facts t
  funext j
  refine (pay_apply (iblk0 V c 0 t) (iblk0 V c 1 t) (iblk0 V c 2 t) j).trans ?_
  show _ = Spec.lin (V c main_v12) (V c main_v13) (V c main_v14) (((cfg0.win 3).blk t).view.emb j)
  unfold Spec.lin
  refine congrArg₂ (· + ·) (Finset.sum_congr rfl fun k _ => congrArg₂ (· * ·) ?_ ?_) ?_
  · show V c main_v12 (((cfg0.win 0).blk t).view.emb (p2 (j 0).val (j 0).isLt k.val k.isLt)) = V c main_v12 _
    refine congrArg (V c main_v12) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_v13 (((cfg0.win 1).blk t).view.emb (p2 k.val k.isLt (j 1).val (j 1).isLt)) = V c main_v13 _
    refine congrArg (V c main_v13) (funext fun a => Fin.ext ?_)
    match a with
    | ⟨0, _⟩ => show win0_1.index t (0 : Fin 2) * 128 + 1 * k.val = k.val; omega
    | ⟨1, _⟩ => show win0_1.index t (1 : Fin 2) * 256 + 1 * (j 1).val = win0_3.index t (1 : Fin 2) * 256 + 1 * (j 1).val; omega
  · show V c main_v14 (((cfg0.win 2).blk t).view.emb (p2 0 Nat.one_pos (j 1).val (j 1).isLt)) = V c main_v14 _
    refine congrArg (V c main_v14) (funext fun a => Fin.ext ?_)
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega

theorem mem_blk (t : Fin cfg0.N) (i : S800000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v15).slice (win0_3.rect t)).set ↔ _
  rw [View.set_slice_whole, Rect.mem_set_unit]
  exact Iff.rfl

theorem cover (i : S800000x256.Idx) : ∃ t : Fin cfg0.N, (cfg0.win 3).flush t = true ∧ i ∈ ((cfg0.win 3).blk t).view.set := by
  have hi0 : (i 0).val < 800000 := (i 0).isLt
  have hi1 : (i 1).val < 256 := (i 1).isLt
  have hN : cfg0.N = 160 := N_0
  have ht : (i 0).val / 5000 < cfg0.N := by rw [hN]; omega
  obtain ⟨-, -, -, -, -, -, e6, e7⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 256 ≤ (i 1).val ∧ (i 1).val < win0_3.index ⟨(i 0).val / 5000, ht⟩ (1 : Fin 2) * 256 + 256
    rw [e7]; omega

/-- After the first kernel's grid has run, its output array is `Spec.lin` of the three arrays it was entered with. -/
theorem final (c : Dev nD) : (dat0 V c).arrAt 3 cfg0.N = Spec.lin (V c main_v12) (V c main_v13) (V c main_v14) :=
  (dat0 V c).arrAt_eq_of_cover 3 _ (fun t _ => flushed_eq V c t) cover

end Cert.KernelIdeal.Linear

end
-- ==== Proof.Region1.lean ====
/-
  The second kernel: normalize, project, join with the object's features, update, clamp — on 80000 rows, computed
  over 40 blocks of 2000 rows.

  At each grid point the body loads a block of 2000 rows of the aggregate, of the weight sums (one column) and of the
  objects' features, and the four parameter arrays whole. Every operation of the body acts row by row: the division
  by the row's clamped weight sum, the two matrix products (their contracted axes, 256 and 512, lie whole inside the
  block), the bias additions, the concatenation along the columns and the final clamp. So what the body stores is
  `Spec.upd` of its seven blocks (`pay_apply`), and by `Spec.upd_rows` that is the block of rows of `Spec.upd` of the
  seven whole arrays. The three row-blocked inputs and the output sit at block row t, the parameters at block (0, 0)
  (the index maps, decided over the 40 points), and the 40 output blocks cover the array (row r lies in block
  r / 2000): the output array after the grid is `Spec.upd` of the seven arrays the kernel was entered with.
-/
import proofs.«165691_j48077863912208_1_alg».proof.Proof.Gen.KernelIdeal.Frame
import proofs.«165691_j48077863912208_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Update

open Cert.KernelIdeal Cert.KernelIdeal.Gen Idealize.ShloMosaic Idealize.ShloMosaic.TcCoe Idealize.SL.Sem
open Idealize.ShloMosaic.Pipeline (Dat)
open Cert.Spec (p2 A2)

/-! ## The two matrix products' operand indices -/

theorem lhs1_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs1_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs1_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs1_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem lhs2_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs2_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs2_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs2_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The projection's product into a zero accumulator, at an entry: row times column over the 256 inner indices. -/
theorem matmul1_apply (a : FVec Ideal S2000x256 .bf16) (b : FVec Ideal S256x256 .bf16) (y : S2000x256.Idx) :
    matmul dot_S2000x256_S256x256_S2000x256_1_0_0_1_n_n none a b (constant S2000x256 .f32 0x00000000#32) y
      = ∑ k : Fin 256, a (p2 (y 0).val (y 0).isLt k.val k.isLt) * b (p2 k.val k.isLt (y 1).val (y 1).isLt) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx y ((ValueIdx.contrEquiv1 dot_S2000x256_S256x256_S2000x256_1_0_0_1_n_n 256 rfl rfl).symm k) = p2 (y 0).val (y 0).isLt k.val k.isLt := funext fun a => Fin.ext (by
    match a with
    | ⟨0, _⟩ => exact lhs1_0 _ _
    | ⟨1, _⟩ => exact (lhs1_1 _ _).trans hk)
  have er : dot_S2000x256_S256x256_S2000x256_1_0_0_1_n_n.rhsIdx y ((ValueIdx.contrEquiv1 dot_S2000x256_S256x256_S2000x256_1_0_0_1_n_n 256 rfl rfl).symm k) = p2 k.val k.isLt (y 1).val (y 1).isLt := funext fun a => Fin.ext (by
    match a with
    | ⟨0, _⟩ => exact (rhs1_0 _ _).trans hk
    | ⟨1, _⟩ => exact rhs1_1 _ _)
  rw [el, er]
  rfl

/-- The update's product into a zero accumulator, at an entry: row times column over the 512 inner indices. -/
theorem matmul2_apply (a : FVec Ideal S2000x512 .bf16) (b : FVec Ideal S512x256 .bf16) (y : S2000x256.Idx) :
    matmul dot_S2000x512_S512x256_S2000x256_1_0_0_1_n_n none a b (constant S2000x256 .f32 0x00000000#32) y
      = ∑ k : Fin 512, a (p2 (y 0).val (y 0).isLt k.val k.isLt) * b (p2 k.val k.isLt (y 1).val (y 1).isLt) := by
  simp only [matmul]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx y ((ValueIdx.contrEquiv1 dot_S2000x512_S512x256_S2000x256_1_0_0_1_n_n 512 rfl rfl).symm k) = p2 (y 0).val (y 0).isLt k.val k.isLt := funext fun a => Fin.ext (by
    match a with
    | ⟨0, _⟩ => exact lhs2_0 _ _
    | ⟨1, _⟩ => exact (lhs2_1 _ _).trans hk)
  have er : dot_S2000x512_S512x256_S2000x256_1_0_0_1_n_n.rhsIdx y ((ValueIdx.contrEquiv1 dot_S2000x512_S512x256_S2000x256_1_0_0_1_n_n 512 rfl rfl).symm k) = p2 k.val k.isLt (y 1).val (y 1).isLt := funext fun a => Fin.ext (by
    match a with
    | ⟨0, _⟩ => exact (rhs2_0 _ _).trans hk
    | ⟨1, _⟩ => exact rhs2_1 _ _)
  rw [el, er]
  rfl

/-! ## The body's pieces at an entry -/

/-- A bias row spread over the 2000 rows of a block. -/
theorem bias_apply (x : Vec Ideal S1x256 .f32) (y : S2000x256.Idx) :
    broadcastTo S2000x256 x broadcasts_S1x256_S2000x256 y = x (p2 0 Nat.one_pos (y 1).val (y 1).isLt) :=
  broadcastTo_apply x broadcasts_S1x256_S2000x256 y (p2 0 Nat.one_pos (y 1).val (y 1).isLt) (fun a => match a with
    | ⟨0, _⟩ => by show 0 = if (1 : Nat) = 1 then 0 else _; rw [if_pos rfl]
    | ⟨1, _⟩ => by show (y 1).val = if (256 : Nat) = 1 then 0 else (y 1).val; rw [if_neg (by decide)])

/-- The clamped weight sum of a row, spread along the row. -/
theorem clamp_apply (v2 : Vec Ideal S2000x1 .f32) (y : S2000x256.Idx) :
    broadcastTo S2000x256 (maximumf v2 (broadcast S2000x1 (Scalar.ofBits (F := Ideal) .f32 0x358637BD#32))) broadcasts_S2000x1_S2000x256 y
      = max (v2 (p2 (y 0).val (y 0).isLt 0 Nat.one_pos)) Spec.wfloor :=
  (broadcastTo_apply _ broadcasts_S2000x1_S2000x256 y (p2 (y 0).val (y 0).isLt 0 Nat.one_pos) (fun a => match a with
    | ⟨0, _⟩ => by show (y 0).val = if (2000 : Nat) = 1 then 0 else (y 0).val; rw [if_neg (by decide)]
    | ⟨1, _⟩ => by show 0 = if (1 : Nat) = 1 then 0 else _; rw [if_pos rfl])).trans rfl

/-- The normalized aggregate block times the projection matrix plus its bias is `Spec.proj` of the blocks. -/
theorem proj_apply (v0 : Vec Ideal S2000x256 .f32) (v2 : Vec Ideal S2000x1 .f32) (v9 : Vec Ideal S256x256 .f32) (v13 : Vec Ideal S1x256 .f32) (y : S2000x256.Idx) :
    addf (matmul dot_S2000x256_S256x256_S2000x256_1_0_0_1_n_n none
        (truncf .bf16 (divf v0 (broadcastTo S2000x256 (maximumf v2 (broadcast S2000x1 (Scalar.ofBits (F := Ideal) .f32 0x358637BD#32))) broadcasts_S2000x1_S2000x256)) bitsLt_bf16_f32)
        (truncf .bf16 v9 bitsLt_bf16_f32) (constant S2000x256 .f32 0x00000000#32))
      (broadcastTo S2000x256 v13 broadcasts_S1x256_S2000x256) y
      = Spec.proj (n := 2000) v0 v2 v9 v13 y := by
  rw [ValueIdx.addf_apply]
  unfold Spec.proj
  refine congrArg₂ (· + ·) ((matmul1_apply _ _ y).trans (Finset.sum_congr rfl fun k _ => congrArg₂ (· * ·) ?_ rfl)) (bias_apply v13 y)
  exact congrArg (Ideal.div (v0 _)) (clamp_apply v2 _)

/-- Two 256-column blocks joined along the columns. -/
theorem comb_apply (a b : FVec Ideal S2000x256 .f32) (j : S2000x512.Idx) :
    concatenate S2000x512 1 [⟨S2000x256, a⟩, ⟨S2000x256, b⟩] concatenates_S2000x256_S2000x256_S2000x512_d1 j = Spec.comb (n := 2000) a b j := by
  unfold Spec.comb
  by_cases h : (j 1).val < 256
  · rw [dif_pos h]
    exact concatenate_pair_apply_left 1 a b concatenates_S2000x256_S2000x256_S2000x512_d1 j rfl (p2 (j 0).val (j 0).isLt (j 1).val h)
      (fun b => match b with | ⟨0, _⟩ => rfl | ⟨1, _⟩ => rfl)
  · rw [dif_neg h]
    exact concatenate_pair_apply_right 1 a b concatenates_S2000x256_S2000x256_S2000x512_d1 j rfl rfl
      (p2 (j 0).val (j 0).isLt ((j 1).val - 256) (by have h2 : (j 1).val < 512 := (j 1).isLt; omega))
      (fun b hb => match b, hb with | ⟨0, _⟩, _ => rfl | ⟨1, _⟩, hb => absurd rfl hb)
      (by show (j 1).val - 256 + 256 = (j 1).val; omega)

/-- What the body stores, entry by entry: `Spec.upd` of the seven loaded blocks. -/
theorem pay_apply (v0 : Vec Ideal S2000x256 .f32) (v2 : Vec Ideal S2000x1 .f32) (v9 : Vec Ideal S256x256 .f32) (v13 : Vec Ideal S1x256 .f32)
    (v17 : Vec Ideal S2000x256 .f32) (v21 : Vec Ideal S512x256 .f32) (v25 : Vec Ideal S1x256 .f32) (y : S2000x256.Idx) :
    k1_pay1 v0 v2 v9 v13 v17 v21 v25 y = Spec.upd (n := 2000) v0 v2 v17 v9 v13 v21 v25 y := by
  unfold k1_pay1
  rw [shapeCast_self, shapeCast_self, shapeCast_self, shapeCast_self, shapeCast_self, shapeCast_self, shapeCast_self,
    ValueIdx.maximumf_apply, ValueIdx.addf_apply]
  unfold Spec.upd
  refine congrArg₂ max (congrArg₂ (· + ·) ((matmul2_apply _ _ y).trans (Finset.sum_congr rfl fun k _ => congrArg₂ (· * ·) ?_ rfl)) (bias_apply v25 y)) rfl
  refine (comb_apply v17 _ _).trans ?_
  exact congrArg (fun f => Spec.comb (n := 2000) v17 f _) (funext fun y' => proj_apply v0 v2 v9 v13 y')

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output sit at block row `t`, the four
    parameter arrays at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point `t` writes back is block `t` of `Spec.upd` of the seven arrays the kernel was entered with. -/
theorem flushed_eq (c : Dev nD) (t : Fin cfg1.N) :
    (dat1 V c).flushed 7 t = ((cfg1.win 7).blk t).view.read (Elt Ideal)
      (Spec.upd (n := 80000) (V c main_v21) (V c main_v25) (V c main_v0) (V c main_v26) (V c main_v27) (V c main_v28) (V c main_v29)) := by
  show (cfg1.win 7).cut (grid1.coords t) ((dat1 V c).after 7 t) = _
  rw [after1_7]
  unfold out1_7
  rw [View.canon_unit_zero hz]
  simp only [View.ld_unit_zero (S := S2000x256) hz, View.ld_unit_zero (S := S2000x1) hz, View.ld_unit_zero (S := S256x256) hz,
    View.ld_unit_zero (S := S1x256) hz, View.ld_unit_zero (S := S512x256) hz]
  obtain ⟨a0, a1, b0, b1, c0, c1, d0, d1, f0, f1, g0, g1, k0, k1, o0, o1⟩ := idx_facts t
  have hagg : Spec.RowsOf (t.val * 2000) (V c main_v21 : A2 80000 256) (iblk1 V c 0 t : A2 2000 256) := fun j' j h0 h1 => by
    show V c main_v21 (((cfg1.win 0).blk t).view.emb j') = V c main_v21 j
    refine congrArg (V c main_v21) (Spec.idx_ext _ _ ?_ ?_)
    · show win1_0.index t (0 : Fin 2) * 2000 + 1 * (j' 0).val = (j 0).val; omega
    · show win1_0.index t (1 : Fin 2) * 256 + 1 * (j' 1).val = (j 1).val; omega
  have hws : Spec.RowsOf (t.val * 2000) (V c main_v25 : A2 80000 1) (iblk1 V c 1 t : A2 2000 1) := fun j' j h0 h1 => by
    show V c main_v25 (((cfg1.win 1).blk t).view.emb j') = V c main_v25 j
    refine congrArg (V c main_v25) (Spec.idx_ext _ _ ?_ ?_)
    · show win1_1.index t (0 : Fin 2) * 2000 + 1 * (j' 0).val = (j 0).val; omega
    · show win1_1.index t (1 : Fin 2) * 1 + 1 * (j' 1).val = (j 1).val; omega
  have hobj : Spec.RowsOf (t.val * 2000) (V c main_v0 : A2 80000 256) (iblk1 V c 2 t : A2 2000 256) := fun j' j h0 h1 => by
    show V c main_v0 (((cfg1.win 2).blk t).view.emb j') = V c main_v0 j
    refine congrArg (V c main_v0) (Spec.idx_ext _ _ ?_ ?_)
    · show win1_2.index t (0 : Fin 2) * 2000 + 1 * (j' 0).val = (j 0).val; omega
    · show win1_2.index t (1 : Fin 2) * 256 + 1 * (j' 1).val = (j 1).val; omega
  have hwp : (iblk1 V c 3 t : A2 256 256) = V c main_v26 := funext fun y => by
    show V c main_v26 (((cfg1.win 3).blk t).view.emb y) = V c main_v26 y
    refine congrArg (V c main_v26) (Spec.idx_ext _ _ ?_ ?_)
    · show win1_3.index t (0 : Fin 2) * 256 + 1 * (y 0).val = (y 0).val; omega
    · show win1_3.index t (1 : Fin 2) * 256 + 1 * (y 1).val = (y 1).val; omega
  have hbp : (iblk1 V c 4 t : A2 1 256) = V c main_v27 := funext fun y => by
    show V c main_v27 (((cfg1.win 4).blk t).view.emb y) = V c main_v27 y
    refine congrArg (V c main_v27) (Spec.idx_ext _ _ ?_ ?_)
    · show win1_4.index t (0 : Fin 2) * 1 + 1 * (y 0).val = (y 0).val; omega
    · show win1_4.index t (1 : Fin 2) * 256 + 1 * (y 1).val = (y 1).val; omega
  have hwu : (iblk1 V c 5 t : A2 512 256) = V c main_v28 := funext fun y => by
    show V c main_v28 (((cfg1.win 5).blk t).view.emb y) = V c main_v28 y
    refine congrArg (V c main_v28) (Spec.idx_ext _ _ ?_ ?_)
    · show win1_5.index t (0 : Fin 2) * 512 + 1 * (y 0).val = (y 0).val; omega
    · show win1_5.index t (1 : Fin 2) * 256 + 1 * (y 1).val = (y 1).val; omega
  have hbu : (iblk1 V c 6 t : A2 1 256) = V c main_v29 := funext fun y => by
    show V c main_v29 (((cfg1.win 6).blk t).view.emb y) = V c main_v29 y
    refine congrArg (V c main_v29) (Spec.idx_ext _ _ ?_ ?_)
    · show win1_6.index t (0 : Fin 2) * 1 + 1 * (y 0).val = (y 0).val; omega
    · show win1_6.index t (1 : Fin 2) * 256 + 1 * (y 1).val = (y 1).val; omega
  funext j
  refine (pay_apply (iblk1 V c 0 t) (iblk1 V c 1 t) (iblk1 V c 3 t) (iblk1 V c 4 t) (iblk1 V c 2 t) (iblk1 V c 5 t) (iblk1 V c 6 t) j).trans ?_
  have e : Spec.upd (n := 2000) (iblk1 V c 0 t) (iblk1 V c 1 t) (iblk1 V c 2 t) (iblk1 V c 3 t) (iblk1 V c 4 t) (iblk1 V c 5 t) (iblk1 V c 6 t)
      = Spec.upd (n := 2000) (iblk1 V c 0 t) (iblk1 V c 1 t) (iblk1 V c 2 t) (V c main_v26) (V c main_v27) (V c main_v28) (V c main_v29) :=
    congr (congr (congr (congrArg (Spec.upd (n := 2000) (iblk1 V c 0 t) (iblk1 V c 1 t) (iblk1 V c 2 t)) hwp) hbp) hwu) hbu
  refine (congrFun e j).trans ?_
  refine Spec.upd_rows (t.val * 2000) _ _ _ _ hagg hws hobj j _ ?_ ?_
  · show win1_7.index t (0 : Fin 2) * 2000 + 1 * (j 0).val = t.val * 2000 + (j 0).val; omega
  · show win1_7.index t (1 : Fin 2) * 256 + 1 * (j 1).val = (j 1).val; omega

theorem mem_blk (t : Fin cfg1.N) (i : S80000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v30).slice (win1_7.rect t)).set ↔ _
  rw [View.set_slice_whole, Rect.mem_set_unit]
  exact Iff.rfl

/-- Row r of the output lies in the block of point r / 2000. -/
theorem cover (i : S80000x256.Idx) : ∃ t : Fin cfg1.N, (cfg1.win 7).flush t = true ∧ i ∈ ((cfg1.win 7).blk t).view.set := by
  have hi0 : (i 0).val < 80000 := (i 0).isLt
  have hi1 : (i 1).val < 256 := (i 1).isLt
  have hN : cfg1.N = 40 := N_1
  have ht : (i 0).val / 2000 < cfg1.N := by rw [hN]; omega
  obtain ⟨-, -, -, -, -, -, -, -, -, -, -, -, -, -, o0, o1⟩ := idx_facts ⟨(i 0).val / 2000, ht⟩
  refine ⟨⟨(i 0).val / 2000, ht⟩, flush1_7 _, ?_⟩
  rw [mem_blk]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win1_7.index ⟨(i 0).val / 2000, ht⟩ (1 : Fin 2) * 256 ≤ (i 1).val ∧ (i 1).val < win1_7.index ⟨(i 0).val / 2000, ht⟩ (1 : Fin 2) * 256 + 256
    rw [o1]; omega

/-- After the second kernel's grid has run, its output array is `Spec.upd` of the seven arrays it was entered with. -/
theorem final (c : Dev nD) : (dat1 V c).arrAt 7 cfg1.N
    = Spec.upd (n := 80000) (V c main_v21) (V c main_v25) (V c main_v0) (V c main_v26) (V c main_v27) (V c main_v28) (V c main_v29) :=
  (dat1 V c).arrAt_eq_of_cover 7 _ (fun t _ => flushed_eq V c t) cover

end Cert.KernelIdeal.Update

end
-- ==== Proof.Chain.lean ====
/-
  What the result buffer holds when @main returns, read back through the segment boundaries: the reshape after the
  second kernel, the second kernel's output array (`Spec.upd` of its seven entry arrays), the host operations between
  the kernels (the weighting and the two row sums), the first kernel's output array (`Spec.lin` of its three entry
  arrays), and the host operations before it (the reshapes, the index row slices, the gather, the transposes) —
  down to the argument arrays as launched.
-/
import proofs.«165691_j48077863912208_1_alg».proof.Proof.Gen.KernelIdeal.Frame
import proofs.«165691_j48077863912208_1_alg».proof.Proof.Spec
import proofs.«165691_j48077863912208_1_alg».proof.Proof.Value
import proofs.«165691_j48077863912208_1_alg».proof.Proof.Region0
import proofs.«165691_j48077863912208_1_alg».proof.Proof.Region1
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

/-! ## The buffers at the segment boundaries -/

variable (m : (ℓ : Loc nD τ sig) → Buf (Elt Ideal) ℓ) (ρ : Dev nD → PrngReg)

theorem W1_v12 (c : Dev nD) : V1 m ρ c main_v12 = gathered (m ((c : Thread nD τ).loc main_arg1)) (m ((c : Thread nD τ).loc main_arg2)) := by
  show StableHlo.after hostOps0 (W0 m ρ c) (Proc.devRef .tc main_v12) = _
  after_results
  rfl

theorem W1_v13 (c : Dev nD) : V1 m ρ c main_v13 = transpose S128x256 [1, 0] (m ((c : Thread nD τ).loc main_arg4)) transposes_S256x128_S128x256_1_0 := by
  show StableHlo.after hostOps0 (W0 m ρ c) (Proc.devRef .tc main_v13) = _
  after_results
theorem W1_v14 (c : Dev nD) : V1 m ρ c main_v14 = shapeCast S1x256 (m ((c : Thread nD τ).loc main_arg5)) shapeCasts_S256_S1x256 := by
  show StableHlo.after hostOps0 (W0 m ρ c) (Proc.devRef .tc main_v14) = _
  after_results
  rfl
theorem W1_v3 (c : Dev nD) : W1 m ρ c (Proc.devRef .tc main_v3) = objIdx (m ((c : Thread nD τ).loc main_arg2)) := by
  show StableHlo.after hostOps0 (W0 m ρ c) (Proc.devRef .tc main_v3) = _
  after_results
  rfl
theorem W1_v0 (c : Dev nD) : W1 m ρ c (Proc.devRef .tc main_v0) = shapeCast S80000x256 (m ((c : Thread nD τ).loc main_arg0)) shapeCasts_S8x10000x256_S80000x256 := by
  show StableHlo.after hostOps0 (W0 m ρ c) (Proc.devRef .tc main_v0) = _
  after_results
  rfl
theorem W1_arg3 (c : Dev nD) : W1 m ρ c (Proc.devRef .tc main_arg3) = (m ((c : Thread nD τ).loc main_arg3)) := by
  show StableHlo.after hostOps0 (W0 m ρ c) (Proc.devRef .tc main_arg3) = _
  after_results
theorem W1_arg6 (c : Dev nD) : W1 m ρ c (Proc.devRef .tc main_arg6) = (m ((c : Thread nD τ).loc main_arg6)) := by
  show StableHlo.after hostOps0 (W0 m ρ c) (Proc.devRef .tc main_arg6) = _
  after_results
theorem W1_arg7 (c : Dev nD) : W1 m ρ c (Proc.devRef .tc main_arg7) = (m ((c : Thread nD τ).loc main_arg7)) := by
  show StableHlo.after hostOps0 (W0 m ρ c) (Proc.devRef .tc main_arg7) = _
  after_results
theorem W1_arg8 (c : Dev nD) : W1 m ρ c (Proc.devRef .tc main_arg8) = (m ((c : Thread nD τ).loc main_arg8)) := by
  show StableHlo.after hostOps0 (W0 m ρ c) (Proc.devRef .tc main_arg8) = _
  after_results
theorem W1_arg9 (c : Dev nD) : W1 m ρ c (Proc.devRef .tc main_arg9) = (m ((c : Thread nD τ).loc main_arg9)) := by
  show StableHlo.after hostOps0 (W0 m ρ c) (Proc.devRef .tc main_arg9) = _
  after_results

/-- After the first kernel, its output array holds the messages. -/
theorem W2_v15 (c : Dev nD) : W2 m ρ c (Proc.devRef .tc main_v15) = msgs (m ((c : Thread nD τ).loc main_arg1)) (m ((c : Thread nD τ).loc main_arg2)) (m ((c : Thread nD τ).loc main_arg4)) (m ((c : Thread nD τ).loc main_arg5)) := by
  refine (W2_arr m ρ c 3).trans ((Linear.final (V1 m ρ) c).trans ?_)
  rw [W1_v12, W1_v13, W1_v14]
  rfl
theorem W2_v3 (c : Dev nD) : W2 m ρ c (Proc.devRef .tc main_v3) = objIdx (m ((c : Thread nD τ).loc main_arg2)) :=
  (W2_of_ne m ρ c main_v3 (by decide)).trans (W1_v3 m ρ c)
theorem W2_v0 (c : Dev nD) : W2 m ρ c (Proc.devRef .tc main_v0) = shapeCast S80000x256 (m ((c : Thread nD τ).loc main_arg0)) shapeCasts_S8x10000x256_S80000x256 :=
  (W2_of_ne m ρ c main_v0 (by decide)).trans (W1_v0 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)

/-! The second kernel's seven arrays as it finds them. -/

theorem V3_v21 (c : Dev nD) : V3 m ρ c main_v21 = agg (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v21) = _
  after_results
  rw [W2_v15, W2_v3, W2_arg3]
  rfl
theorem V3_v25 (c : Dev nD) : V3 m ρ c main_v25 = shapeCast S80000x1 (wsum (m ((c : Thread nD τ).loc main_arg2)) (m ((c : Thread nD τ).loc main_arg3))) shapeCasts_S80000_S80000x1 := by
  show StableHlo.after hostOps1 (W2 m ρ c) (Proc.devRef .tc main_v25) = _
  after_results
  rw [W2_v3, W2_arg3]
  rfl
theorem V3_v0 (c : Dev nD) : V3 m ρ c main_v0 = shapeCast S80000x256 (m ((c : Thread nD τ).loc main_arg0)) shapeCasts_S8x10000x256_S80000x256 := by
  show StableHlo.after hostOps1 (W2 m ρ c) (Proc.devRef .tc main_v0) = _
  after_results
  exact W2_v0 m ρ c
theorem V3_v26 (c : Dev nD) : V3 m ρ c main_v26 = transpose S256x256 [1, 0] (m ((c : Thread nD τ).loc main_arg6)) transposes_S256x256_S256x256_1_0 := by
  show StableHlo.after hostOps1 (W2 m ρ c) (Proc.devRef .tc main_v26) = _
  after_results
  rw [W2_arg6]
theorem V3_v27 (c : Dev nD) : V3 m ρ c main_v27 = shapeCast S1x256 (m ((c : Thread nD τ).loc main_arg7)) shapeCasts_S256_S1x256 := by
  show StableHlo.after hostOps1 (W2 m ρ c) (Proc.devRef .tc main_v27) = _
  after_results
  rw [W2_arg7]
  rfl
theorem V3_v28 (c : Dev nD) : V3 m ρ c main_v28 = transpose S512x256 [1, 0] (m ((c : Thread nD τ).loc main_arg8)) transposes_S256x512_S512x256_1_0 := by
  show StableHlo.after hostOps1 (W2 m ρ c) (Proc.devRef .tc main_v28) = _
  after_results
  rw [W2_arg8]
theorem V3_v29 (c : Dev nD) : V3 m ρ c main_v29 = shapeCast S1x256 (m ((c : Thread nD τ).loc main_arg9)) shapeCasts_S256_S1x256 := by
  show StableHlo.after hostOps1 (W2 m ρ c) (Proc.devRef .tc main_v29) = _
  after_results
  rw [W2_arg9]
  rfl

/-- After the second kernel, its output array is `Spec.upd` of what the host operations before it prepared. -/
theorem W4_v30 (c : Dev nD) : W4 m ρ c (Proc.devRef .tc main_v30)
    = Spec.upd (n := 80000) (agg (m ((c : Thread nD τ).loc main_arg1)) (m ((c : Thread nD τ).loc main_arg2)) (m ((c : Thread nD τ).loc main_arg3)) (m ((c : Thread nD τ).loc main_arg4)) (m ((c : Thread nD τ).loc main_arg5)))
        (shapeCast S80000x1 (wsum (m ((c : Thread nD τ).loc main_arg2)) (m ((c : Thread nD τ).loc main_arg3))) shapeCasts_S80000_S80000x1)
        (shapeCast S80000x256 (m ((c : Thread nD τ).loc main_arg0)) shapeCasts_S8x10000x256_S80000x256)
        (transpose S256x256 [1, 0] (m ((c : Thread nD τ).loc main_arg6)) transposes_S256x256_S256x256_1_0) (shapeCast S1x256 (m ((c : Thread nD τ).loc main_arg7)) shapeCasts_S256_S1x256)
        (transpose S512x256 [1, 0] (m ((c : Thread nD τ).loc main_arg8)) transposes_S256x512_S512x256_1_0) (shapeCast S1x256 (m ((c : Thread nD τ).loc main_arg9)) shapeCasts_S256_S1x256) := by
  refine (W4_arr m ρ c 7).trans ((Update.final (V3 m ρ) c).trans ?_)
  rw [V3_v21, V3_v25, V3_v0, V3_v26, V3_v27, V3_v28, V3_v29]

/-- The result buffer at the end of the run is the program's value of the argument arrays as launched. -/
theorem W5_v31 (c : Dev nD) : W5 m ρ c (Proc.devRef .tc main_v31)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v31) = _
  after_results
  rw [W4_v30]
  rfl

end Cert.KernelIdeal.Chain

end
-- ==== Proof.RefValue.lean ====
/-
  The reference's composed term is the same function of the argument arrays as the kernel program's value.

  The stages both programs share (the reshapes, the two index rows, the gather, the transposes, the weighting, the two
  row sums) are the same terms. The reference's first linear layer, a whole-array product plus a broadcast bias, is
  `Spec.lin` entry by entry: a product entry is the sum over the contracted index, and the bias vector reshaped to one
  row reads the same entry as the bias vector broadcast along the rows. Its second half — the division by the clamped
  weight sums, the projection, the concatenation with the objects' features, the update and the clamp at zero — is
  `Spec.upd` entry by entry; the one difference in form is that the reference's lower clamp has the constant on the
  left of the maximum, and `max` is commutative.
-/
import proofs.«165691_j48077863912208_1_alg».proof.Proof.Gen.ReferenceIdeal.Read
import proofs.«165691_j48077863912208_1_alg».proof.Proof.Spec
import proofs.«165691_j48077863912208_1_alg».proof.Proof.Value
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.Read Idealize.ShloMosaic Idealize.ShloMosaic.TcCoe
open Cert.Spec (p2 A2)
open Cert.KernelIdeal (Chain.gathered Chain.msgs Chain.agg Chain.wsum Chain.value Chain.objIdx Chain.attrIdx)

/-! ## The shared host stages are the same terms -/

theorem gathered_eq (x1 : (⟨S8x2000x128, .f32⟩ : BufTy).Contents (Elt Ideal)) (x2 : (⟨S2x800000, .i32⟩ : BufTy).Contents (Elt Ideal)) :
    val_main_v12 (F := Ideal) x1 x2 = Cert.KernelIdeal.Chain.gathered x1 x2 := rfl

/-! ## The first linear layer -/

theorem lidx14_eq (i : S800000x256.Idx) (k : Fin 128) : lidx_main_v14 i k = p2 (n0 := 800000) (n1 := 128) (i 0).val (i 0).isLt k.val k.isLt :=
  funext fun a => by match a with | ⟨0, _⟩ => rfl | ⟨1, _⟩ => rfl
theorem ridx14_eq (i : S800000x256.Idx) (k : Fin 128) : ridx_main_v14 i k = p2 (n0 := 128) (n1 := 256) k.val k.isLt (i 1).val (i 1).isLt :=
  funext fun a => by match a with | ⟨0, _⟩ => rfl | ⟨1, _⟩ => rfl

/-- A 256-vector reshaped to one row, read at column c, is the vector at c. -/
theorem row_apply (x : (⟨S256, .f32⟩ : BufTy).Contents (Elt Ideal)) (c : Nat) (hc : c < 256) (k : S256.Idx) (hk : (k 0).val = c) :
    shapeCast Cert.KernelIdeal.S1x256 x Cert.KernelIdeal.Gen.shapeCasts_S256_S1x256 (p2 0 Nat.one_pos c hc) = x k :=
  shapeCast_apply x Cert.KernelIdeal.Gen.shapeCasts_S256_S1x256 (p2 0 Nat.one_pos c hc) k (by
    rw [Shape.rowMajor_val_one, Shape.rowMajor_val_two]
    show (k 0).val = 0 * 256 + c
    omega)

/-- The reference's first linear layer is `Spec.lin` of the gathered rows, the transposed weight and the bias row. -/
theorem msgs_eq (x1 : (⟨S8x2000x128, .f32⟩ : BufTy).Contents (Elt Ideal)) (x2 : (⟨S2x800000, .i32⟩ : BufTy).Contents (Elt Ideal)) (x4 : (⟨S256x128, .f32⟩ : BufTy).Contents (Elt Ideal)) (x5 : (⟨S256, .f32⟩ : BufTy).Contents (Elt Ideal)) :
    val_main_v17 (F := Ideal) x1 x2 x4 x5 = Cert.KernelIdeal.Chain.msgs x1 x2 x4 x5 := by
  funext i
  rw [val_main_v17_apply, val_main_v14_apply, val_main_v16_apply, val_main_v15_apply]
  unfold Cert.KernelIdeal.Chain.msgs Cert.Spec.lin
  refine congrArg₂ (· + ·) (Finset.sum_congr rfl fun k _ => congrArg₂ (· * ·) ?_ ?_) ?_
  · rw [lidx14_eq]; rfl
  · rw [ridx14_eq]; rfl
  · exact (row_apply x5 (i 1).val (i 1).isLt _ rfl).symm

/-! ## The aggregate and the weight sums -/

theorem wsum_eq (x2 : (⟨S2x800000, .i32⟩ : BufTy).Contents (Elt Ideal)) (x3 : (⟨S800000, .f32⟩ : BufTy).Contents (Elt Ideal)) : val_main_v26 (F := Ideal) x2 x3 = Cert.KernelIdeal.Chain.wsum x2 x3 := rfl

/-- The messages weighted and summed into their objects' rows: the same sum of the same messages. -/
theorem agg_eq (x1 : (⟨S8x2000x128, .f32⟩ : BufTy).Contents (Elt Ideal)) (x2 : (⟨S2x800000, .i32⟩ : BufTy).Contents (Elt Ideal)) (x3 : (⟨S800000, .f32⟩ : BufTy).Contents (Elt Ideal)) (x4 : (⟨S256x128, .f32⟩ : BufTy).Contents (Elt Ideal)) (x5 : (⟨S256, .f32⟩ : BufTy).Contents (Elt Ideal)) :
    val_main_v23 (F := Ideal) x1 x2 x3 x4 x5 = Cert.KernelIdeal.Chain.agg x1 x2 x3 x4 x5 := by
  unfold val_main_v23 val_main_v20
  rw [msgs_eq]
  rfl

/-- The reference clamps the weight sum from below with the constant on the left of the maximum. -/
theorem clamp_eq (x2 : (⟨S2x800000, .i32⟩ : BufTy).Contents (Elt Ideal)) (x3 : (⟨S800000, .f32⟩ : BufTy).Contents (Elt Ideal)) (j : S80000x256.Idx) :
    val_main_v29 (F := Ideal) x2 x3 j = max Cert.Spec.wfloor (val_main_v26 (F := Ideal) x2 x3 (idx_main_v28 (idx_main_v29 j))) := by
  rw [val_main_v29_apply, val_main_v28_apply, val_main_v27_apply, val_main_call0_v1_apply, val_main_call0_v0_apply, val_main_cst_2_apply]
  rfl

/-- An 80000-vector reshaped to one column, read at row r, is the vector at r. -/
theorem col_apply (y : (⟨S80000, .f32⟩ : BufTy).Contents (Elt Ideal)) (r : Nat) (hr : r < 80000) (k : S80000.Idx) (hk : (k 0).val = r) :
    shapeCast Cert.KernelIdeal.S80000x1 y Cert.KernelIdeal.Gen.shapeCasts_S80000_S80000x1 (p2 r hr 0 Nat.one_pos) = y k :=
  shapeCast_apply y Cert.KernelIdeal.Gen.shapeCasts_S80000_S80000x1 (p2 r hr 0 Nat.one_pos) k (by
    rw [Shape.rowMajor_val_one, Shape.rowMajor_val_two]
    show (k 0).val = r * 1 + 0
    omega)

/-! ## The projection -/

theorem lidx32_eq (i : S80000x256.Idx) (k : Fin 256) : lidx_main_v32 i k = p2 (n0 := 80000) (n1 := 256) (i 0).val (i 0).isLt k.val k.isLt :=
  funext fun a => by match a with | ⟨0, _⟩ => rfl | ⟨1, _⟩ => rfl
theorem ridx32_eq (i : S80000x256.Idx) (k : Fin 256) : ridx_main_v32 i k = p2 (n0 := 256) (n1 := 256) k.val k.isLt (i 1).val (i 1).isLt :=
  funext fun a => by match a with | ⟨0, _⟩ => rfl | ⟨1, _⟩ => rfl

/-- The reference's normalized, projected aggregate is `Spec.proj`. -/
theorem proj_eq (x1 : (⟨S8x2000x128, .f32⟩ : BufTy).Contents (Elt Ideal)) (x2 : (⟨S2x800000, .i32⟩ : BufTy).Contents (Elt Ideal)) (x3 : (⟨S800000, .f32⟩ : BufTy).Contents (Elt Ideal)) (x4 : (⟨S256x128, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) :
    val_main_v35 (F := Ideal) x1 x2 x3 x4 x5 x6 x7
      = Cert.Spec.proj (n := 80000) (Cert.KernelIdeal.Chain.agg x1 x2 x3 x4 x5)
          (shapeCast Cert.KernelIdeal.S80000x1 (Cert.KernelIdeal.Chain.wsum x2 x3) Cert.KernelIdeal.Gen.shapeCasts_S80000_S80000x1)
          (transpose Cert.KernelIdeal.S256x256 [1, 0] x6 Cert.KernelIdeal.Gen.transposes_S256x256_S256x256_1_0)
          (shapeCast Cert.KernelIdeal.S1x256 x7 Cert.KernelIdeal.Gen.shapeCasts_S256_S1x256) := by
  funext j
  rw [val_main_v35_apply, val_main_v32_apply, val_main_v34_apply, val_main_v33_apply]
  unfold Cert.Spec.proj
  refine congrArg₂ (· + ·) (Finset.sum_congr rfl fun k _ => congrArg₂ (· * ·) ?_ ?_) ?_
  · rw [val_main_v30_apply, clamp_eq, agg_eq, wsum_eq, max_comm]
    refine congrArg₂ Ideal.div (congrArg (Cert.KernelIdeal.Chain.agg x1 x2 x3 x4 x5) (lidx32_eq j k)) (congrArg (max · Cert.Spec.wfloor) ?_)
    exact (col_apply (Cert.KernelIdeal.Chain.wsum x2 x3) (j 0).val (j 0).isLt _ rfl).symm
  · rw [ridx32_eq]; rfl
  · exact (row_apply x7 (j 1).val (j 1).isLt _ rfl).symm

/-! ## The update -/

/-- Two 256-column arrays joined along the columns. -/
theorem comb_apply (a b : FVec Ideal S80000x256 .f32) (j : S80000x512.Idx) :
    concatenate S80000x512 1 [⟨S80000x256, a⟩, ⟨S80000x256, b⟩] concatenates_S80000x256_S80000x256_S80000x512_d1 j = Cert.Spec.comb (n := 80000) a b j := by
  unfold Cert.Spec.comb
  by_cases h : (j 1).val < 256
  · rw [dif_pos h]
    exact concatenate_pair_apply_left 1 a b concatenates_S80000x256_S80000x256_S80000x512_d1 j rfl (p2 (j 0).val (j 0).isLt (j 1).val h)
      (fun b => match b with | ⟨0, _⟩ => rfl | ⟨1, _⟩ => rfl)
  · rw [dif_neg h]
    exact concatenate_pair_apply_right 1 a b concatenates_S80000x256_S80000x256_S80000x512_d1 j rfl rfl
      (p2 (j 0).val (j 0).isLt ((j 1).val - 256) (by have h2 : (j 1).val < 512 := (j 1).isLt; omega))
      (fun b hb => match b, hb with | ⟨0, _⟩, _ => rfl | ⟨1, _⟩, hb => absurd rfl hb)
      (by show (j 1).val - 256 + 256 = (j 1).val; omega)

theorem lidx38_eq (i : S80000x256.Idx) (k : Fin 512) : lidx_main_v38 i k = p2 (n0 := 80000) (n1 := 512) (i 0).val (i 0).isLt k.val k.isLt :=
  funext fun a => by match a with | ⟨0, _⟩ => rfl | ⟨1, _⟩ => rfl
theorem ridx38_eq (i : S80000x256.Idx) (k : Fin 512) : ridx_main_v38 i k = p2 (n0 := 512) (n1 := 256) k.val k.isLt (i 1).val (i 1).isLt :=
  funext fun a => by match a with | ⟨0, _⟩ => rfl | ⟨1, _⟩ => rfl

/-- The reference's updated object rows, before the final reshape, are `Spec.upd`. -/
theorem upd_eq (x0 : (⟨S8x10000x256, .f32⟩ : BufTy).Contents (Elt Ideal)) (x1 : (⟨S8x2000x128, .f32⟩ : BufTy).Contents (Elt Ideal)) (x2 : (⟨S2x800000, .i32⟩ : BufTy).Contents (Elt Ideal)) (x3 : (⟨S800000, .f32⟩ : BufTy).Contents (Elt Ideal)) (x4 : (⟨S256x128, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x512, .f32⟩ : BufTy).Contents (Elt Ideal)) (x9 : (⟨S256, .f32⟩ : BufTy).Contents (Elt Ideal)) :
    val_main_v42 (F := Ideal) x0 x1 x2 x3 x4 x5 x6 x7 x8 x9
      = Cert.Spec.upd (n := 80000) (Cert.KernelIdeal.Chain.agg x1 x2 x3 x4 x5)
          (shapeCast Cert.KernelIdeal.S80000x1 (Cert.KernelIdeal.Chain.wsum x2 x3) Cert.KernelIdeal.Gen.shapeCasts_S80000_S80000x1)
          (shapeCast Cert.KernelIdeal.S80000x256 x0 Cert.KernelIdeal.Gen.shapeCasts_S8x10000x256_S80000x256)
          (transpose Cert.KernelIdeal.S256x256 [1, 0] x6 Cert.KernelIdeal.Gen.transposes_S256x256_S256x256_1_0)
          (shapeCast Cert.KernelIdeal.S1x256 x7 Cert.KernelIdeal.Gen.shapeCasts_S256_S1x256)
          (transpose Cert.KernelIdeal.S512x256 [1, 0] x8 Cert.KernelIdeal.Gen.transposes_S256x512_S512x256_1_0)
          (shapeCast Cert.KernelIdeal.S1x256 x9 Cert.KernelIdeal.Gen.shapeCasts_S256_S1x256) := by
  funext i
  rw [val_main_v42_apply, val_main_v41_apply, val_main_v38_apply, val_main_v40_apply, val_main_v39_apply,
    val_main_call1_v0_apply, val_main_call1_cst_apply]
  unfold Cert.Spec.upd
  refine congrArg₂ max (congrArg₂ (· + ·) (Finset.sum_congr rfl fun k _ => congrArg₂ (· * ·) ?_ ?_) ?_) rfl
  · rw [lidx38_eq]
    unfold val_main_v36
    refine (comb_apply _ _ _).trans ?_
    rw [proj_eq]
    rfl
  · rw [ridx38_eq]; rfl
  · exact (row_apply x9 (i 1).val (i 1).isLt _ rfl).symm

/-- The reference's result is the program's value of the same ten arrays. -/
theorem value_eq (x0 : (⟨S8x10000x256, .f32⟩ : BufTy).Contents (Elt Ideal)) (x1 : (⟨S8x2000x128, .f32⟩ : BufTy).Contents (Elt Ideal)) (x2 : (⟨S2x800000, .i32⟩ : BufTy).Contents (Elt Ideal)) (x3 : (⟨S800000, .f32⟩ : BufTy).Contents (Elt Ideal)) (x4 : (⟨S256x128, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x512, .f32⟩ : BufTy).Contents (Elt Ideal)) (x9 : (⟨S256, .f32⟩ : BufTy).Contents (Elt Ideal)) :
    val_main_v43 (F := Ideal) x0 x1 x2 x3 x4 x5 x6 x7 x8 x9 = Cert.KernelIdeal.Chain.value x0 x1 x2 x3 x4 x5 x6 x7 x8 x9 := by
  unfold val_main_v43 Cert.KernelIdeal.Chain.value
  rw [upd_eq]

end Cert.ReferenceIdeal.RefValue

end
-- ==== Proof.lean ====
/-
  The certificate of a two-kernel message-passing layer against its plain reference, over the extended reals.

  Both programs gather one attribute row per edge, send it through a linear layer, weight the message by the edge's
  weight, and sum messages and weights into the rows of the objects the edges point at; each object's summed message
  is divided by its weight sum clamped from below at a small constant, projected, joined with the object's own
  features, sent through a second linear layer and clamped at zero. The kernel program computes the first linear
  layer in one kernel over blocks of 5000 edges and everything after the two sums in a second kernel over blocks of
  2000 objects; the reference computes each on whole arrays.

  Neither kernel splits an inner product: every block holds whole rows, the contracted axis is never tiled. So each
  entry of each kernel's output is the very same sum of the very same products as the reference's entry, and the two
  programs are one function of the argument arrays (`Chain.value`) with no use of any law of the extended reals beyond
  the commutativity of `max` (the reference clamps with the constant on the left). The precondition is never opened.

  `Spec` states what each kernel computes, entry by entry; `Region0` and `Region1` show each kernel's output array,
  after its grid has run, is that function of the arrays it was entered with; `Chain` reads the result buffer back
  through the host operations between and around the kernels to the argument arrays; `RefValue` shows the reference's
  composed term is the same function. The frames are the generated ones.
-/
import proofs.«165691_j48077863912208_1_alg».proof.Defs
import proofs.«165691_j48077863912208_1_alg».proof.Proof.Gen.Kernel
import proofs.«165691_j48077863912208_1_alg».proof.Proof.Gen.Kernel.Frame
import proofs.«165691_j48077863912208_1_alg».proof.Proof.Gen.KernelIdeal
import proofs.«165691_j48077863912208_1_alg».proof.Proof.Gen.KernelIdeal.Frame
import proofs.«165691_j48077863912208_1_alg».proof.Proof.Gen.ReferenceIdeal
import proofs.«165691_j48077863912208_1_alg».proof.Proof.Gen.ReferenceIdeal.Run
import proofs.«165691_j48077863912208_1_alg».proof.Proof.Gen.ReferenceIdeal.Read
import proofs.«165691_j48077863912208_1_alg».proof.Proof.Gen.Pre_finite_inputs
import proofs.«165691_j48077863912208_1_alg».proof.Proof.KernelRun
import proofs.«165691_j48077863912208_1_alg».proof.Proof.Chain
import proofs.«165691_j48077863912208_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at `Chain.value` of the argument arrays, which agree. -/
theorem algebraic : Cert.algebraic_KernelIdeal_ReferenceIdeal := by
  intro m ρ m' ρ' _ hagree
  refine ⟨fun c => Cert.KernelIdeal.Chain.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.W5_v31 m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v43_eq, Cert.ReferenceIdeal.RefValue.value_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
